-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024x256 : Shape := ⟨2, ![1024, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16384x256 .f32) (main_arg1 : FVec F S1024x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S16384x256 : Shape := ⟨2, ![16384, 256]⟩
abbrev S1024x256 : Shape := ⟨2, ![1024, 256]⟩
abbrev S2048x256 : Shape := ⟨2, ![2048, 256]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024x256, .bf16⟩
  | .hbm, ⟨3, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S1024x256, .bf16⟩
  | .local _ .vmem, ⟨3, _⟩ => ⟨S2048x256, .f32⟩
  | .local _ .vmem, ⟨4, _⟩ => ⟨S2048x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S256x256_0_0 : ∀ a, (![0, 0] : Fin 2 → Nat) a + S256x256.size a ≤ S2048x256.size a
  h_S256x256 : 0 < S256x256.numel
  reduces_S256x1024_S256 : S256x1024.Reduces [1] S256
  shapeCasts_S256_S256x1 : S256.ShapeCasts S256x1
  broadcasts_S256x1_S256x1024 : S256x1.Broadcasts S256x1024
  broadcasts_S256x1_S256x256 : S256x1.Broadcasts S256x256
  inb_S2048x256_S256x256_256_0 : ∀ a, (![256, 0] : Fin 2 → Nat) a + S256x256.size a ≤ S2048x256.size a
  inb_S2048x256_S256x256_512_0 : ∀ a, (![512, 0] : Fin 2 → Nat) a + S256x256.size a ≤ S2048x256.size a
  inb_S2048x256_S256x256_768_0 : ∀ a, (![768, 0] : Fin 2 → Nat) a + S256x256.size a ≤ S2048x256.size a
  inb_S2048x256_S256x256_1024_0 : ∀ a, (![1024, 0] : Fin 2 → Nat) a + S256x256.size a ≤ S2048x256.size a
  inb_S2048x256_S256x256_1280_0 : ∀ a, (![1280, 0] : Fin 2 → Nat) a + S256x256.size a ≤ S2048x256.size a
  inb_S2048x256_S256x256_1536_0 : ∀ a, (![1536, 0] : Fin 2 → Nat) a + S256x256.size a ≤ S2048x256.size a
  inb_S2048x256_S256x256_1792_0 : ∀ a, (![1792, 0] : Fin 2 → Nat) a + S256x256.size a ≤ S2048x256.size a
  dot_S256x256_S1024x256_S256x1024_1_1_0_0_n_n_wf : DotDims.WF S256x256 S1024x256 S256x1024 [1] [1] [0] [0] [] []
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)

variable [Facts₀]

def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S1024x256 : Shape := ⟨2, ![1024, 256]⟩
abbrev S256x1024 : Shape := ⟨2, ![256, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S256x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x256, .f32⟩
  | .hbm, ⟨42, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  transposes_S1024x256_S256x1024_1_0 : S1024x256.Transposes [1, 0] S256x1024
  reducesTo_S16384x1024_S16384_d1 : S16384x1024.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  dot_S16384x256_S256x1024_S16384x1024_1_0_0_1_n_n_wf : DotDims.WF S16384x256 S256x1024 S16384x1024 [1] [0] [0] [1] [] []
  dot_S16384x1024_S1024x256_S16384x256_1_0_0_1_n_n_wf : DotDims.WF S16384x1024 S1024x256 S16384x256 [1] [0] [0] [1] [] []

variable [Facts₀]

def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf

class Facts : Prop extends Facts₀ where

variable [Facts]
-- ==== Proof.Spec.lean ====
/-
  Memory-bank attention, one token row at a time, on the extended reals.

  For a token row `x : Fin 256 → EReal` and a bank `B : Fin 1024 → Fin 256 → EReal` the output row is
      tanh ( softmax( shrink( softmax( x · Bᵀ ) ) ) · B ),
  where `shrink` is the soft threshold at `lam`. Two arrangements of this formula are written out below,
  operation by operation:

  * the FUSED arrangement (`fusedRow`): the first softmax multiplies by the reciprocal of the row sum,
    the soft threshold is `max (p - lam) 0` (valid because a softmax weight is never negative), the second
    softmax subtracts no row maximum, and its normalisation `1 / Z` is applied AFTER the product with the bank;
  * the TEXTBOOK arrangement (`textbookRow`): both softmaxes subtract the row maximum and divide by the row sum,
    the soft threshold is `sign p * max (|p| - lam) 0`, and the product with the bank comes last.

  The law between the two (proved beside this module) says they agree whenever every entry of `x` and `B` is a real number.
  The law needs that: on reals every intermediate value is real, the common factor `exp (-M₂)` of the second
  softmax cancels, and `1 / Z` moves across the finite sum over the bank; at an infinity neither step is valid.
-/
import Idealize.ShloMosaic.PureOps.Ideal
import Idealize.ShloMosaic.PureOps.Ideal.Laws

noncomputable section

namespace BankAttention

open Idealize.ShloMosaic

/-- The float words the two programs share, read as extended reals: `-∞`, `0`, `1` and the threshold. -/
abbrev negInf : EReal := Ideal.ofBits .f32 0xFF800000#32
abbrev zero : EReal := Ideal.ofBits .f32 0x00000000#32
abbrev one : EReal := Ideal.ofBits .f32 0x3F800000#32
abbrev lam : EReal := Ideal.ofBits .f32 0x3B23D70A#32

/-- A row's maximum as both programs take it: the fold of `max` over the 1024 bank slots, started at `-∞`. -/
def rowMax (f : Fin 1024 → EReal) : EReal := (Finset.univ : Finset (Fin 1024)).fold max negInf f

variable (x : Fin 256 → EReal) (B : Fin 1024 → Fin 256 → EReal)

/-- The attention score of bank slot `k`: the inner product of the token row with bank row `k`. -/
def score (k : Fin 1024) : EReal := ∑ d : Fin 256, x d * B k d

/-! ## The fused arrangement -/

/-- `exp (score - row maximum)`. -/
def fusedExp (k : Fin 1024) : EReal := Ideal.exp (score x B k - rowMax (score x B))
/-- First softmax: the exponential times the reciprocal of the row sum. -/
def fusedWeight (k : Fin 1024) : EReal := fusedExp x B k * Ideal.div one (∑ k' : Fin 1024, fusedExp x B k')
/-- Soft threshold of a non-negative weight. -/
def fusedShrunk (k : Fin 1024) : EReal := max (fusedWeight x B k - lam) zero
/-- Second softmax's numerator, with no maximum subtracted. -/
def fusedExp2 (k : Fin 1024) : EReal := Ideal.exp (fusedShrunk x B k)
/-- The output row: the un-normalised product with the bank, scaled by `1 / Z`, through `tanh`. -/
def fusedRow (q : Fin 256) : EReal :=
  Ideal.tanh ((∑ k : Fin 1024, fusedExp2 x B k * B k q) * Ideal.div one (∑ k : Fin 1024, fusedExp2 x B k))

/-! ## The textbook arrangement -/

def textMax : EReal := max negInf (rowMax (score x B))
def textExp (k : Fin 1024) : EReal := Ideal.exp (score x B k - textMax x B)
def textWeight (k : Fin 1024) : EReal := Ideal.div (textExp x B k) (zero + ∑ k' : Fin 1024, textExp x B k')
/-- `sign p * max (|p| - lam) 0`, the absolute value written as `max p (-p)`. -/
def textShrunk (k : Fin 1024) : EReal :=
  Ideal.sign (textWeight x B k) * max (max (textWeight x B k) (-(textWeight x B k)) - lam) zero
def textMax2 : EReal := max negInf (rowMax (textShrunk x B))
def textExp2 (k : Fin 1024) : EReal := Ideal.exp (textShrunk x B k - textMax2 x B)
def textWeight2 (k : Fin 1024) : EReal := Ideal.div (textExp2 x B k) (zero + ∑ k' : Fin 1024, textExp2 x B k')
def textbookRow (q : Fin 256) : EReal := Ideal.tanh (∑ k : Fin 1024, textWeight2 x B k * B k q)

end BankAttention

end
-- ==== Proof.Law.lean ====
/-
  The law between the two arrangements of memory-bank attention (Spec.lean): on real inputs the fused
  arrangement computes the textbook formula, row by row.
-/
import proofs.«127310_g57990648430879_cont_sun_c4_352_16_alg».proof.Proof.Spec
import Mathlib.Analysis.SpecialFunctions.Exp
import Mathlib.Tactic.FieldSimp
import Mathlib.Tactic.Ring

noncomputable section

namespace BankAttention

open Idealize.ShloMosaic

variable (x : Fin 256 → EReal) (B : Fin 1024 → Fin 256 → EReal)

/-! ## The shared float words, read as extended reals -/

private theorem negInf_eq : negInf = ⊥ := by simp [negInf, Ideal.ofBits, Ideal.ieee]

private theorem zero_eq : zero = 0 := by simp [zero, Ideal.ofBits, Ideal.ieee]

private theorem one_eq : one = 1 := by
  rw [show (1 : EReal) = ((1 : ℝ) : EReal) by norm_cast]
  simp [one, Ideal.ofBits, Ideal.ieee, -EReal.coe_mul]; norm_num

/-- A word whose exponent field is not all ones denotes a real number. -/
private theorem ieee_real (e m : Nat) {w : Nat} (b : BitVec w)
    (h : (b.extractLsb' m e).toNat ≠ 2 ^ e - 1) : ∃ r : ℝ, Ideal.ieee e m b = (r : EReal) := by
  unfold Ideal.ieee
  simp only []
  rw [if_neg h]
  split_ifs <;> exact ⟨_, rfl⟩

private theorem lam_real : ∃ l : ℝ, lam = (l : EReal) :=
  ieee_real 8 23 (0x3B23D70A#32 : BitVec 32) (by decide)

/-! ## Finite sums and maxima of real-valued rows -/

private theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The maximum of a real-valued row over the 1024 bank slots is one of its entries, so a real. -/
private theorem rowMax_real (g : Fin 1024 → ℝ) :
    ∃ M : ℝ, rowMax (fun k => (g k : EReal)) = (M : EReal) := by
  obtain ⟨i, -, hi⟩ := Finset.exists_mem_eq_sup (Finset.univ : Finset (Fin 1024)) Finset.univ_nonempty
    (fun k => (g k : EReal))
  refine ⟨g i, ?_⟩
  rw [← hi, rowMax, negInf_eq]
  rfl

/-- On real operands, with a nonzero divisor, the division is the real quotient. -/
private theorem div_coe_coe (a : ℝ) {y : ℝ} (h : y ≠ 0) :
    Ideal.div (a : EReal) (y : EReal) = ((a / y : ℝ) : EReal) := by
  rw [Ideal.div_coe h, ← EReal.coe_mul, mul_one_div]

/-! ## First softmax: both arrangements give the same positive real weights -/

private theorem weights_real (a : Fin 1024 → ℝ) (hs : score x B = fun k => (a k : EReal)) :
    ∃ p : Fin 1024 → ℝ, (∀ k, 0 < p k) ∧ (∀ k, fusedWeight x B k = (p k : EReal)) ∧
      ∀ k, textWeight x B k = (p k : EReal) := by
  obtain ⟨M, hM⟩ := rowMax_real a
  have hfe : ∀ k, fusedExp x B k = ((Real.exp (a k - M) : ℝ) : EReal) := by
    intro k
    rw [fusedExp, hs, hM, ← EReal.coe_sub, Ideal.exp_coe]
  have hte : ∀ k, textExp x B k = ((Real.exp (a k - M) : ℝ) : EReal) := by
    intro k
    rw [textExp, textMax, hs, hM, negInf_eq, max_eq_right bot_le, ← EReal.coe_sub, Ideal.exp_coe]
  have hS : (0 : ℝ) < ∑ k, Real.exp (a k - M) :=
    Finset.sum_pos (fun k _ => Real.exp_pos _) Finset.univ_nonempty
  refine ⟨fun k => Real.exp (a k - M) / ∑ k', Real.exp (a k' - M),
    fun k => div_pos (Real.exp_pos _) hS, ?_, ?_⟩
  · intro k
    rw [fusedWeight, one_eq]
    simp only [hfe]
    rw [coe_sum, ← EReal.coe_one, div_coe_coe 1 hS.ne', ← EReal.coe_mul, mul_one_div]
  · intro k
    rw [textWeight, zero_eq, zero_add]
    simp only [hte]
    rw [coe_sum, div_coe_coe _ hS.ne']

/-! ## Soft threshold: on a positive weight the two forms agree -/

private theorem shrunk_real (p : Fin 1024 → ℝ) (hp : ∀ k, 0 < p k)
    (hf : ∀ k, fusedWeight x B k = (p k : EReal)) (ht : ∀ k, textWeight x B k = (p k : EReal)) :
    ∃ s : Fin 1024 → ℝ, (∀ k, fusedShrunk x B k = (s k : EReal)) ∧
      ∀ k, textShrunk x B k = (s k : EReal) := by
  obtain ⟨l, hl⟩ := lam_real
  have hmax : ∀ r : ℝ, max ((r : EReal) - (l : EReal)) 0 = ((max (r - l) 0 : ℝ) : EReal) := by
    intro r
    rw [← EReal.coe_sub, ← EReal.coe_zero]
    exact (EReal.coe_strictMono.monotone.map_max).symm
  refine ⟨fun k => max (p k - l) 0, ?_, ?_⟩
  · intro k
    rw [fusedShrunk, hf, hl, zero_eq, hmax]
  · intro k
    have hpos : (0 : EReal) < (p k : EReal) := EReal.coe_pos.mpr (hp k)
    have habs : max (p k : EReal) (-(p k : EReal)) = (p k : EReal) := by
      apply max_eq_left
      rw [← EReal.coe_neg]
      exact EReal.coe_le_coe_iff.mpr (by linarith [hp k])
    rw [textShrunk, ht, hl, zero_eq, Ideal.sign_of_pos hpos, one_mul, habs, hmax]

/-! ## Second softmax and the product with the bank -/

private theorem rows_agree (s : Fin 1024 → ℝ) (Br : Fin 1024 → Fin 256 → ℝ)
    (hBr : ∀ k d, B k d = (Br k d : EReal))
    (hf : ∀ k, fusedShrunk x B k = (s k : EReal)) (ht : ∀ k, textShrunk x B k = (s k : EReal))
    (q : Fin 256) : fusedRow x B q = textbookRow x B q := by
  have hts : textShrunk x B = fun k => (s k : EReal) := funext ht
  obtain ⟨M₂, hM₂⟩ := rowMax_real s
  have hZ : (0 : ℝ) < ∑ k, Real.exp (s k) :=
    Finset.sum_pos (fun k _ => Real.exp_pos _) Finset.univ_nonempty
  have hZ' : (0 : ℝ) < ∑ k, Real.exp (s k - M₂) :=
    Finset.sum_pos (fun k _ => Real.exp_pos _) Finset.univ_nonempty
  have hfe : ∀ k, fusedExp2 x B k = ((Real.exp (s k) : ℝ) : EReal) := by
    intro k
    rw [fusedExp2, hf, Ideal.exp_coe]
  have hte : ∀ k, textExp2 x B k = ((Real.exp (s k - M₂) : ℝ) : EReal) := by
    intro k
    rw [textExp2, textMax2, hts, hM₂, negInf_eq, max_eq_right bot_le, ← EReal.coe_sub, Ideal.exp_coe]
  have htw : ∀ k, textWeight2 x B k
      = ((Real.exp (s k - M₂) / ∑ k', Real.exp (s k' - M₂) : ℝ) : EReal) := by
    intro k
    rw [textWeight2, zero_eq, zero_add]
    simp only [hte]
    rw [coe_sum, div_coe_coe _ hZ'.ne']
  have hfused : fusedRow x B q
      = ((Real.tanh ((∑ k, Real.exp (s k) * Br k q) / ∑ k, Real.exp (s k)) : ℝ) : EReal) := by
    rw [fusedRow, one_eq]
    simp only [hfe, hBr, ← EReal.coe_mul]
    rw [coe_sum, coe_sum, ← EReal.coe_one, div_coe_coe 1 hZ.ne', ← EReal.coe_mul, Ideal.tanh_coe,
      mul_one_div]
  have htext : textbookRow x B q
      = ((Real.tanh (∑ k, Real.exp (s k - M₂) / (∑ k', Real.exp (s k' - M₂)) * Br k q) : ℝ) : EReal) := by
    rw [textbookRow]
    simp only [htw, hBr, ← EReal.coe_mul]
    rw [coe_sum, Ideal.tanh_coe]
  rw [hfused, htext]
  congr 2
  -- the common factor exp (-M₂) cancels, and 1 / Z moves across the sum over the bank
  have hexp : ∀ k, Real.exp (s k - M₂) = Real.exp (s k) / Real.exp M₂ := fun k => Real.exp_sub _ _
  have hc : Real.exp M₂ ≠ 0 := (Real.exp_pos _).ne'
  have hZ0 : (∑ k, Real.exp (s k)) ≠ 0 := hZ.ne'
  simp only [hexp]
  rw [← Finset.sum_div, Finset.sum_div]
  refine Finset.sum_congr rfl fun k _ => ?_
  field_simp

/-- On real inputs the fused arrangement computes the textbook formula. -/
theorem fusedRow_eq_textbookRow (hx : ∀ d, ∃ r : ℝ, x d = (r : EReal)) (hB : ∀ k d, ∃ r : ℝ, B k d = (r : EReal)) :
    fusedRow x B = textbookRow x B := by
  choose xr hxr using hx
  choose Br hBr using hB
  have hscore : score x B = fun k => ((∑ d, xr d * Br k d : ℝ) : EReal) := by
    funext k
    simp only [score, hxr, hBr, ← EReal.coe_mul]
    exact coe_sum _ _
  obtain ⟨p, hp, hfw, htw⟩ := weights_real x B _ hscore
  obtain ⟨s, hfs, hts⟩ := shrunk_real x B p hp hfw htw
  funext q
  exact rows_agree x B s Br hBr hfs hts q

end BankAttention

end
-- ==== Proof.Finite.lean ====
/-
  What the precondition says: every entry of the two input arrays is a real number.
-/
import proofs.«127310_g57990648430879_cont_sun_c4_352_16_alg».proof.Pre_finite_inputs
import Idealize.ShloMosaic.PureOps.Ideal
import Idealize.ShloMosaic.Lib.ReduceAll
import Idealize.ShloMosaic.Lib.ValueIdx

noncomputable section

namespace Cert.Pre_finite_inputs.Decode

open Cert.Pre_finite_inputs Idealize.ShloMosaic

/-- The f32 word `0x7F800000` denotes `+∞`. -/
private theorem inf_word : Ideal.ofBits .f32 0x7F800000#32 = (⊤ : EReal) := by
  simp [Ideal.ofBits, Ideal.ieee]

/-- An extended real whose absolute value `max x (-x)` compares strictly below `+∞` is a real number:
    at `⊥` and at `⊤` the absolute value is `⊤`, which is not below `⊤`. -/
private theorem real_of_abs_lt_inf (x : EReal)
    (h : Ideal.cmp .olt (max x (-x)) (Ideal.ofBits .f32 0x7F800000#32) = 1#1) : ∃ r : ℝ, x = (r : EReal) := by
  rw [inf_word] at h
  unfold Ideal.cmp at h
  induction x using EReal.rec with
  | bot => simp at h
  | coe r => exact ⟨r, rfl⟩
  | top => simp at h

/-- The scalar shape has one index. -/
private instance : Subsingleton S_.Idx := ⟨fun _ _ => funext fun d => d.elim0⟩

/-- If `finite_inputs` holds (its one result bit is 1), every entry of both arrays is a real number. -/
theorem real_of_pre [Cert.Pre_finite_inputs.Facts] (a0 : FVec Ideal S16384x256 .f32) (a1 : FVec Ideal S1024x256 .f32)
    (h : Cert.Pre_finite_inputs.fn (F := Ideal) a0 a1 = fun _ => 1#1) :
    (∀ i, ∃ r : ℝ, a0 i = (r : EReal)) ∧ (∀ i, ∃ r : ℝ, a1 i = (r : EReal)) := by
  -- the one result bit, read at the scalar shape's one index
  have h0 := congrFun h ValueIdx.ix0
  unfold Cert.Pre_finite_inputs.fn at h0
  dsimp only at h0
  -- the final `and` is 1, so both `all`-reductions are 1
  obtain ⟨h3, h7⟩ := IntOp.andi_eq_one.1 h0
  refine ⟨fun i => ?_, fun i => ?_⟩
  · -- every compare bit of the first array is 1, in particular the one at `i`
    exact real_of_abs_lt_inf (a0 i) (Host.reduce_andi_all _ _ _ _ _ h3 i)
  · exact real_of_abs_lt_inf (a1 i) (Host.reduce_andi_all _ _ _ _ _ h7 i)

end Cert.Pre_finite_inputs.Decode

end
-- ==== Proof.RefRead.lean ====
/-
  The reference program's result, read at an index: entry (r, q) of its output is the textbook
  arrangement of memory-bank attention (Spec.lean) applied to row r of the tokens and the whole bank, at column q.
-/
import proofs.«127310_g57990648430879_cont_sun_c4_352_16_alg».proof.Proof.Spec
import proofs.«127310_g57990648430879_cont_sun_c4_352_16_alg».proof.Proof.Gen.ReferenceIdeal.Read
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- A row of the 16384 x 1024 array with the bank coordinate inserted is the literal index. -/
private theorem lift_row (h : S16384x1024.Reduces [1] S16384) (r : Fin 16384) (k : Fin 1024) :
    h.lift (ix1 r) k = ix2 r k :=
  funext fun a => Fin.ext (by match a with | ⟨0, _⟩ => rfl | ⟨1, _⟩ => rfl)

/-- A maximum-reduction over the bank axis, read at row r: the fold of max over the 1024 slots from the initial value. -/
private theorem reduce_max_row (y : S16384x1024.Idx → EReal) (init : S_.Idx → EReal) (r : Fin 16384) :
    Host.reduce (max : EReal → EReal → EReal) y init reducesTo_S16384x1024_S16384_d1 h_S_ (ix1 r)
      = (Finset.univ : Finset (Fin 1024)).fold max (init (Shape.Idx.first h_S_)) (fun k => y (ix2 r k)) := by
  have h : S16384x1024.Reduces [1] S16384 := by decide
  rw [Host.reduce_eq_fold_single (max : EReal → EReal → EReal) y init reducesTo_S16384x1024_S16384_d1 h h_S_ (ix1 r)]
  refine congrArg (Finset.fold max _ · _) (funext fun k => ?_)
  exact congrArg y (lift_row h r k)

/-- The token row r of the first argument and the bank read from the second. -/
private abbrev rowOf (x0 : (⟨S16384x256, .f32⟩ : BufTy).Contents (Elt Ideal)) (r : Fin 16384) : Fin 256 → EReal :=
  fun d => x0 (ix2 r d)
private abbrev bankOf (x1 : (⟨S1024x256, .f32⟩ : BufTy).Contents (Elt Ideal)) : Fin 1024 → Fin 256 → EReal :=
  fun k d => x1 (ix2 k d)

section Stages
variable (x0 : (⟨S16384x256, .f32⟩ : BufTy).Contents (Elt Ideal)) (x1 : (⟨S1024x256, .f32⟩ : BufTy).Contents (Elt Ideal))
  (r : Fin 16384)

/-- The first product at (r, k) is the score of bank slot k. -/
private theorem v1_read (k : Fin 1024) :
    val_main_v1 (F := Ideal) x0 x1 (ix2 r k) = BankAttention.score (rowOf x0 r) (bankOf x1) k := by
  rw [val_main_v1_apply]
  unfold BankAttention.score
  refine Finset.sum_congr rfl fun d _ => ?_
  rw [val_main_v0_apply]
  have e1 : lidx_main_v1 (ix2 r k) d = ix2 r d :=
    funext fun a => Fin.ext (by match a with | ⟨0, _⟩ => rfl | ⟨1, _⟩ => rfl)
  have e2 : idx_main_v0 (ridx_main_v1 (ix2 r k) d) = ix2 k d :=
    funext fun a => Fin.ext (by match a with | ⟨0, _⟩ => rfl | ⟨1, _⟩ => rfl)
  rw [e1, e2]

/-- The first maximum-reduction at row r is the row maximum of the scores. -/
private theorem v2_read :
    val_main_v2 (F := Ideal) x0 x1 (ix1 r) = BankAttention.rowMax (BankAttention.score (rowOf x0 r) (bankOf x1)) := by
  unfold val_main_v2
  refine (reduce_max_row (val_main_v1 (F := Ideal) x0 x1) (val_main_cst (F := Ideal)) r).trans ?_
  unfold BankAttention.rowMax
  refine congrArg (Finset.fold max _ · _) (funext fun k => ?_)
  exact v1_read x0 x1 r k

/-- The guarded row maximum. -/
private theorem v4_read :
    val_main_v4 (F := Ideal) x0 x1 (ix1 r) = BankAttention.textMax (rowOf x0 r) (bankOf x1) := by
  rw [val_main_v4_apply, val_main_v3_apply, val_main_cst_0_apply, v2_read]
  rfl

/-- The first exponential at (r, k). -/
private theorem v8_read (k : Fin 1024) :
    val_main_v8 (F := Ideal) x0 x1 (ix2 r k) = BankAttention.textExp (rowOf x0 r) (bankOf x1) k := by
  rw [val_main_v8_apply, val_main_v7_apply, val_main_v6_apply, val_main_v5_apply]
  have e : idx_main_v5 (idx_main_v6 (ix2 r k)) = ix1 r :=
    funext fun a => Fin.ext (by match a with | ⟨0, _⟩ => rfl)
  rw [e, v4_read, v1_read]
  rfl

/-- The first row sum at row r. -/
private theorem v9_read :
    val_main_v9 (F := Ideal) x0 x1 (ix1 r)
      = BankAttention.zero + ∑ k : Fin 1024, BankAttention.textExp (rowOf x0 r) (bankOf x1) k := by
  rw [val_main_v9_apply]
  refine congrArg (_ + ·) (Finset.sum_congr rfl fun k _ => ?_)
  have e : idx_main_v9 (ix1 r) k = ix2 r k :=
    funext fun a => Fin.ext (by match a with | ⟨0, _⟩ => rfl | ⟨1, _⟩ => rfl)
  rw [e]
  exact v8_read x0 x1 r k

/-- The first softmax weight at (r, k). -/
private theorem v12_read (k : Fin 1024) :
    val_main_v12 (F := Ideal) x0 x1 (ix2 r k) = BankAttention.textWeight (rowOf x0 r) (bankOf x1) k := by
  rw [val_main_v12_apply, val_main_v11_apply, val_main_v10_apply]
  have e : idx_main_v10 (idx_main_v11 (ix2 r k)) = ix1 r :=
    funext fun a => Fin.ext (by match a with | ⟨0, _⟩ => rfl)
  rw [e, v9_read, v8_read]
  rfl

/-- The soft-thresholded weight at (r, k). -/
private theorem v19_read (k : Fin 1024) :
    val_main_v19 (F := Ideal) x0 x1 (ix2 r k) = BankAttention.textShrunk (rowOf x0 r) (bankOf x1) k := by
  rw [val_main_v19_apply, val_main_v13_apply, val_main_v18_apply, val_main_v16_apply, val_main_v14_apply,
    val_main_v15_apply, val_main_v17_apply, val_main_cst_2_apply, val_main_cst_3_apply, v12_read]
  rfl

/-- The second maximum-reduction at row r. -/
private theorem v20_read :
    val_main_v20 (F := Ideal) x0 x1 (ix1 r) = BankAttention.rowMax (BankAttention.textShrunk (rowOf x0 r) (bankOf x1)) := by
  unfold val_main_v20
  refine (reduce_max_row (val_main_v19 (F := Ideal) x0 x1) (val_main_cst_4 (F := Ideal)) r).trans ?_
  unfold BankAttention.rowMax
  refine congrArg (Finset.fold max _ · _) (funext fun k => ?_)
  exact v19_read x0 x1 r k

/-- The second guarded row maximum. -/
private theorem v22_read :
    val_main_v22 (F := Ideal) x0 x1 (ix1 r) = BankAttention.textMax2 (rowOf x0 r) (bankOf x1) := by
  rw [val_main_v22_apply, val_main_v21_apply, val_main_cst_5_apply, v20_read]
  rfl

/-- The second exponential at (r, k). -/
private theorem v26_read (k : Fin 1024) :
    val_main_v26 (F := Ideal) x0 x1 (ix2 r k) = BankAttention.textExp2 (rowOf x0 r) (bankOf x1) k := by
  rw [val_main_v26_apply, val_main_v25_apply, val_main_v24_apply, val_main_v23_apply]
  have e : idx_main_v23 (idx_main_v24 (ix2 r k)) = ix1 r :=
    funext fun a => Fin.ext (by match a with | ⟨0, _⟩ => rfl)
  rw [e, v22_read, v19_read]
  rfl

/-- The second row sum at row r. -/
private theorem v27_read :
    val_main_v27 (F := Ideal) x0 x1 (ix1 r)
      = BankAttention.zero + ∑ k : Fin 1024, BankAttention.textExp2 (rowOf x0 r) (bankOf x1) k := by
  rw [val_main_v27_apply]
  refine congrArg (_ + ·) (Finset.sum_congr rfl fun k _ => ?_)
  have e : idx_main_v27 (ix1 r) k = ix2 r k :=
    funext fun a => Fin.ext (by match a with | ⟨0, _⟩ => rfl | ⟨1, _⟩ => rfl)
  rw [e]
  exact v26_read x0 x1 r k

/-- The second softmax weight at (r, k). -/
private theorem v30_read (k : Fin 1024) :
    val_main_v30 (F := Ideal) x0 x1 (ix2 r k) = BankAttention.textWeight2 (rowOf x0 r) (bankOf x1) k := by
  rw [val_main_v30_apply, val_main_v29_apply, val_main_v28_apply]
  have e : idx_main_v28 (idx_main_v29 (ix2 r k)) = ix1 r :=
    funext fun a => Fin.ext (by match a with | ⟨0, _⟩ => rfl)
  rw [e, v27_read, v26_read]
  rfl

/-- The product with the bank at (r, q). -/
private theorem v31_read (q : Fin 256) :
    val_main_v31 (F := Ideal) x0 x1 (ix2 r q)
      = ∑ k : Fin 1024, BankAttention.textWeight2 (rowOf x0 r) (bankOf x1) k * bankOf x1 k q := by
  rw [val_main_v31_apply]
  refine Finset.sum_congr rfl fun k _ => ?_
  have e1 : lidx_main_v31 (ix2 r q) k = ix2 r k :=
    funext fun a => Fin.ext (by match a with | ⟨0, _⟩ => rfl | ⟨1, _⟩ => rfl)
  have e2 : ridx_main_v31 (ix2 r q) k = ix2 k q :=
    funext fun a => Fin.ext (by match a with | ⟨0, _⟩ => rfl | ⟨1, _⟩ => rfl)
  rw [e1, e2, v30_read]

end Stages

/-- Entry (r, q) of the reference's result is the textbook row formula of token row r and the bank, at q. -/
theorem result_apply (x0 : (⟨S16384x256, .f32⟩ : BufTy).Contents (Elt Ideal)) (x1 : (⟨S1024x256, .f32⟩ : BufTy).Contents (Elt Ideal))
    (r : Fin 16384) (q : Fin 256) :
    val_main_v32 (F := Ideal) x0 x1 (ix2 r q)
      = BankAttention.textbookRow (fun d : Fin 256 => x0 (ix2 r d)) (fun (k : Fin 1024) (d : Fin 256) => x1 (ix2 k d)) q := by
  rw [val_main_v32_apply, v31_read]
  rfl

end Cert.ReferenceIdeal.RefValue

end
-- ==== Proof.KernelRead.lean ====
/-
  The fused kernel's arithmetic, read at an index. One sub-chunk of 256 token rows goes through the chain
  scores → softmax → soft threshold → exponentials → product with the bank → scale by 1/Z → tanh;
  entry (p, q) of the chain's result is the fused row formula (Spec.lean) of row p of the sub-chunk and the
  bank, at column q. The layout steps in between (a row statistic kept as a [256] vector, viewed as a
  [256, 1] column, broadcast along the row) only move a row's number to every slot of that row.
-/
import proofs.«127310_g57990648430879_cont_sun_c4_352_16_alg».proof.Proof.Spec
import proofs.«127310_g57990648430879_cont_sun_c4_352_16_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.FusedValue

open Cert.KernelIdeal Cert.KernelIdeal.Gen Idealize.ShloMosaic Idealize.ShloMosaic.ValueIdx

/-! ## Layout: a per-row number as a column, and the column spread along the row -/

/-- A [256] vector viewed as a [256, 1] column: row p of the column is entry p. -/
theorem column_apply {α : Type} (w : S256.Idx → α) (p : Fin 256) :
    shapeCast S256x1 w shapeCasts_S256_S256x1 (ix2 p (0 : Fin 1)) = w (ix1 p) := by
  refine shapeCast_apply w shapeCasts_S256_S256x1 (ix2 p (0 : Fin 1)) (ix1 p) ?_
  rw [Shape.rowMajor_val_two, Shape.rowMajor_val_one]
  show p.val = p.val * 1 + 0
  omega

/-- The column spread over 1024 slots: every slot of row p holds the column's entry p. -/
theorem spread1024_apply {α : Type} (w : S256x1.Idx → α) (p : Fin 256) (k : Fin 1024) :
    broadcastTo S256x1024 w broadcasts_S256x1_S256x1024 (ix2 p k) = w (ix2 p (0 : Fin 1)) := by
  refine broadcastTo_apply w broadcasts_S256x1_S256x1024 (ix2 p k) (ix2 p (0 : Fin 1)) fun ax => ?_
  match ax with
  | ⟨0, _⟩ => show p.val = if (256 : Nat) = 1 then 0 else p.val; rw [if_neg (by decide)]
  | ⟨1, _⟩ => show 0 = if (1 : Nat) = 1 then 0 else k.val; rw [if_pos rfl]

/-- The column spread over 256 columns. -/
theorem spread256_apply {α : Type} (w : S256x1.Idx → α) (p : Fin 256) (q : Fin 256) :
    broadcastTo S256x256 w broadcasts_S256x1_S256x256 (ix2 p q) = w (ix2 p (0 : Fin 1)) := by
  refine broadcastTo_apply w broadcasts_S256x1_S256x256 (ix2 p q) (ix2 p (0 : Fin 1)) fun ax => ?_
  match ax with
  | ⟨0, _⟩ => show p.val = if (256 : Nat) = 1 then 0 else p.val; rw [if_neg (by decide)]
  | ⟨1, _⟩ => show 0 = if (1 : Nat) = 1 then 0 else q.val; rw [if_pos rfl]

/-! ## The two row reductions -/

/-- The row maximum of a [256, 1024] array at row p is the fold of `max` over that row's 1024 slots. -/
theorem rowMax_apply (v : FVec Ideal S256x1024 .f32) (h : S256x1024.Reduces [1] S256) (hφ : FKind.Formats .f32)
    (hacc : (0xFF800000#32 : BitVec 32) = FKind.maximumf.neutral .f32 hφ) (p : Fin 256) :
    multiReduction .maximumf [1] S256 v 0xFF800000#32 h hφ hacc (ix1 p)
      = BankAttention.rowMax (fun k : Fin 1024 => v (ix2 p k)) := by
  refine (Ideal.multiReduction_maximumf_single v 0xFF800000#32 h hφ hacc (ix1 p)).trans ?_
  unfold BankAttention.rowMax
  refine congrArg (fun f : Fin 1024 → EReal => (Finset.univ : Finset (Fin 1024)).fold max (Ideal.ofBits .f32 0xFF800000#32) f) ?_
  funext k
  exact congrArg v (funext fun a => Fin.ext (by match a with | ⟨0, _⟩ => rfl | ⟨1, _⟩ => rfl))

/-- The row sum at row p is the sum over that row's 1024 slots. -/
theorem rowSum_apply (v : FVec Ideal S256x1024 .f32) (h : S256x1024.Reduces [1] S256) (hφ : FKind.Formats .f32)
    (hacc : (0x00000000#32 : BitVec 32) = FKind.add.neutral .f32 hφ) (p : Fin 256) :
    multiReduction .add [1] S256 v 0x00000000#32 h hφ hacc (ix1 p) = ∑ k : Fin 1024, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-! ## The two matrix products -/

/-- Scores: the left operand's axis 0 is the output row, -/
theorem scoreL_0 (i : S256x1024.Idx) (c : dot_S256x256_S1024x256_S256x1024_1_1_0_0_n_n.contr.Idx) :
    (dot_S256x256_S1024x256_S256x1024_1_1_0_0_n_n.lhsIdx i c 0).val = (i 0).val := by
  unfold DotDims.lhsIdx
  rw [dif_neg (show ¬(0 : Fin S256x256.rank) ∈ dot_S256x256_S1024x256_S256x1024_1_1_0_0_n_n.lhsBatch by decide), dif_pos (show (0 : Fin S256x256.rank) ∈ dot_S256x256_S1024x256_S256x1024_1_1_0_0_n_n.lhsNonContracting by decide)]
  rfl
/-- its axis 1 the contracted feature; -/
theorem scoreL_1 (i : S256x1024.Idx) (c : dot_S256x256_S1024x256_S256x1024_1_1_0_0_n_n.contr.Idx) :
    (dot_S256x256_S1024x256_S256x1024_1_1_0_0_n_n.lhsIdx i c 1).val = (c ⟨0, by decide⟩).val :=
  dot_S256x256_S1024x256_S256x1024_1_1_0_0_n_n.lhsIdx_val_of_single rfl i c
/-- the bank's axis 0 is the output column (the bank slot), -/
theorem scoreR_0 (i : S256x1024.Idx) (c : dot_S256x256_S1024x256_S256x1024_1_1_0_0_n_n.contr.Idx) :
    (dot_S256x256_S1024x256_S256x1024_1_1_0_0_n_n.rhsIdx i c 0).val = (i 1).val := by
  unfold DotDims.rhsIdx
  rw [dif_neg (show ¬(0 : Fin S1024x256.rank) ∈ dot_S256x256_S1024x256_S256x1024_1_1_0_0_n_n.rhsBatch by decide), dif_pos (show (0 : Fin S1024x256.rank) ∈ dot_S256x256_S1024x256_S256x1024_1_1_0_0_n_n.rhsNonContracting by decide)]
  rfl
/-- its axis 1 the contracted feature. -/
theorem scoreR_1 (i : S256x1024.Idx) (c : dot_S256x256_S1024x256_S256x1024_1_1_0_0_n_n.contr.Idx) :
    (dot_S256x256_S1024x256_S256x1024_1_1_0_0_n_n.rhsIdx i c 1).val = (c ⟨0, by decide⟩).val :=
  dot_S256x256_S1024x256_S256x1024_1_1_0_0_n_n.rhsIdx_val_of_single rfl i c

/-- The product with the transposed bank into a zero accumulator: entry (p, k) is the inner product of row p with bank row k. -/
theorem scores_apply (l : FVec Ideal S256x256 .bf16) (r : FVec Ideal S1024x256 .bf16) (p : Fin 256) (k : Fin 1024) :
    matmul dot_S256x256_S1024x256_S256x1024_1_1_0_0_n_n none l r (constant S256x1024 .f32 0x00000000#32) (ix2 p k)
      = ∑ d : Fin 256, l (ix2 p d) * r (ix2 k d) := by
  simp only [matmul]
  rw [Ideal.matmul_constant_zero_apply, ← Equiv.sum_comp (contrEquiv1 dot_S256x256_S1024x256_S256x1024_1_1_0_0_n_n 256 rfl rfl).symm]
  refine Finset.sum_congr rfl fun d _ => ?_
  have hd := contrEquiv1_symm_val dot_S256x256_S1024x256_S256x1024_1_1_0_0_n_n 256 rfl rfl d
  have el : dot_S256x256_S1024x256_S256x1024_1_1_0_0_n_n.lhsIdx (ix2 p k) ((contrEquiv1 dot_S256x256_S1024x256_S256x1024_1_1_0_0_n_n 256 rfl rfl).symm d) = ix2 p d := funext fun a => Fin.ext (by
    match a with
    | ⟨0, _⟩ => exact scoreL_0 _ _
    | ⟨1, _⟩ => exact (scoreL_1 _ _).trans hd)
  have er : dot_S256x256_S1024x256_S256x1024_1_1_0_0_n_n.rhsIdx (ix2 p k) ((contrEquiv1 dot_S256x256_S1024x256_S256x1024_1_1_0_0_n_n 256 rfl rfl).symm d) = ix2 k d := funext fun a => Fin.ext (by
    match a with
    | ⟨0, _⟩ => exact scoreR_0 _ _
    | ⟨1, _⟩ => exact (scoreR_1 _ _).trans hd)
  rw [el, er]

/-- Product with the bank: the left operand's axis 0 is the output row, -/
theorem mixL_0 (i : S256x256.Idx) (c : dot_S256x1024_S1024x256_S256x256_1_0_0_1_n_n.contr.Idx) :
    (dot_S256x1024_S1024x256_S256x256_1_0_0_1_n_n.lhsIdx i c 0).val = (i 0).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
/-- its axis 1 the contracted bank slot; -/
theorem mixL_1 (i : S256x256.Idx) (c : dot_S256x1024_S1024x256_S256x256_1_0_0_1_n_n.contr.Idx) :
    (dot_S256x1024_S1024x256_S256x256_1_0_0_1_n_n.lhsIdx i c 1).val = (c ⟨0, by decide⟩).val :=
  dot_S256x1024_S1024x256_S256x256_1_0_0_1_n_n.lhsIdx_val_of_single rfl i c
/-- the bank's axis 0 is the contracted slot, -/
theorem mixR_0 (i : S256x256.Idx) (c : dot_S256x1024_S1024x256_S256x256_1_0_0_1_n_n.contr.Idx) :
    (dot_S256x1024_S1024x256_S256x256_1_0_0_1_n_n.rhsIdx i c 0).val = (c ⟨0, by decide⟩).val :=
  dot_S256x1024_S1024x256_S256x256_1_0_0_1_n_n.rhsIdx_val_of_single rfl i c
/-- its axis 1 the output column. -/
theorem mixR_1 (i : S256x256.Idx) (c : dot_S256x1024_S1024x256_S256x256_1_0_0_1_n_n.contr.Idx) :
    (dot_S256x1024_S1024x256_S256x256_1_0_0_1_n_n.rhsIdx i c 1).val = (i 1).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl

/-- The product with the bank into a zero accumulator: entry (p, q) sums, over the bank slots, weight times bank entry. -/
theorem mix_apply (l : FVec Ideal S256x1024 .bf16) (r : FVec Ideal S1024x256 .bf16) (p : Fin 256) (q : Fin 256) :
    matmul dot_S256x1024_S1024x256_S256x256_1_0_0_1_n_n none l r (constant S256x256 .f32 0x00000000#32) (ix2 p q)
      = ∑ k : Fin 1024, l (ix2 p k) * r (ix2 k q) := by
  simp only [matmul]
  rw [Ideal.matmul_constant_zero_apply, ← Equiv.sum_comp (contrEquiv1 dot_S256x1024_S1024x256_S256x256_1_0_0_1_n_n 1024 rfl rfl).symm]
  refine Finset.sum_congr rfl fun k _ => ?_
  have hk := contrEquiv1_symm_val dot_S256x1024_S1024x256_S256x256_1_0_0_1_n_n 1024 rfl rfl k
  have el : dot_S256x1024_S1024x256_S256x256_1_0_0_1_n_n.lhsIdx (ix2 p q) ((contrEquiv1 dot_S256x1024_S1024x256_S256x256_1_0_0_1_n_n 1024 rfl rfl).symm k) = ix2 p k := funext fun a => Fin.ext (by
    match a with
    | ⟨0, _⟩ => exact mixL_0 _ _
    | ⟨1, _⟩ => exact (mixL_1 _ _).trans hk)
  have er : dot_S256x1024_S1024x256_S256x256_1_0_0_1_n_n.rhsIdx (ix2 p q) ((contrEquiv1 dot_S256x1024_S1024x256_S256x256_1_0_0_1_n_n 1024 rfl rfl).symm k) = ix2 k q := funext fun a => Fin.ext (by
    match a with
    | ⟨0, _⟩ => exact (mixR_0 _ _).trans hk
    | ⟨1, _⟩ => exact mixR_1 _ _)
  rw [el, er]

/-! ## The chain's stages, each read at an index -/

/-- Softmax numerators of an array of scores: `exp (score - row maximum)`. -/
def expRows (A : FVec Ideal S256x1024 .f32) : FVec Ideal S256x1024 .f32 :=
  exp (subf A (broadcastTo S256x1024 (shapeCast S256x1
    (multiReduction .maximumf [1] S256 A 0xFF800000#32 reduces_S256x1024_S256 (.inl rfl) rfl) shapeCasts_S256_S256x1)
    broadcasts_S256x1_S256x1024))

theorem expRows_apply (A : FVec Ideal S256x1024 .f32) (p : Fin 256) (k : Fin 1024) :
    expRows A (ix2 p k) = Ideal.exp (A (ix2 p k) - BankAttention.rowMax (fun k' : Fin 1024 => A (ix2 p k'))) := by
  show Ideal.exp (A (ix2 p k) - broadcastTo S256x1024 _ broadcasts_S256x1_S256x1024 (ix2 p k)) = _
  rw [spread1024_apply, column_apply]
  exact congrArg (fun mx : EReal => Ideal.exp (A (ix2 p k) - mx)) (rowMax_apply A _ _ _ p)

/-- The reciprocal of each row's sum, as a column. -/
def recipRowSum (E : FVec Ideal S256x1024 .f32) : FVec Ideal S256x1 .f32 :=
  divf (broadcast S256x1 (Scalar.ofBits .f32 0x3F800000#32)) (shapeCast S256x1
    (multiReduction .add [1] S256 E 0x00000000#32 reduces_S256x1024_S256 (.inl rfl) rfl) shapeCasts_S256_S256x1)

theorem recipRowSum_apply (E : FVec Ideal S256x1024 .f32) (p : Fin 256) :
    recipRowSum E (ix2 p (0 : Fin 1)) = Ideal.div BankAttention.one (∑ k : Fin 1024, E (ix2 p k)) := by
  show Ideal.div BankAttention.one (shapeCast S256x1 _ shapeCasts_S256_S256x1 (ix2 p (0 : Fin 1))) = _
  rw [column_apply]
  exact congrArg (Ideal.div BankAttention.one) (rowSum_apply E _ _ _ p)

/-- The second softmax's numerators from the first's: normalise, soft-threshold, exponentiate. -/
def shrinkExp (E : FVec Ideal S256x1024 .f32) : FVec Ideal S256x1024 .f32 :=
  exp (maximumf (subf (mulf E (broadcastTo S256x1024 (recipRowSum E) broadcasts_S256x1_S256x1024))
    (broadcast S256x1024 (Scalar.ofBits .f32 0x3B23D70A#32))) (broadcast S256x1024 (Scalar.ofBits .f32 0x00000000#32)))

theorem shrinkExp_apply (E : FVec Ideal S256x1024 .f32) (p : Fin 256) (k : Fin 1024) :
    shrinkExp E (ix2 p k)
      = Ideal.exp (max (E (ix2 p k) * Ideal.div BankAttention.one (∑ k' : Fin 1024, E (ix2 p k')) - BankAttention.lam) BankAttention.zero) := by
  show Ideal.exp (max (E (ix2 p k) * broadcastTo S256x1024 (recipRowSum E) broadcasts_S256x1_S256x1024 (ix2 p k) - BankAttention.lam) BankAttention.zero) = _
  rw [spread1024_apply, recipRowSum_apply]

/-- The whole chain of one sub-chunk: scores, the two stages above, the product with the bank, the scaling, tanh. -/
def chain (Bv : FVec Ideal S1024x256 .bf16) (X : Vec Ideal S256x256 .f32) : FVec Ideal S256x256 .f32 :=
  let A : FVec Ideal S256x1024 .f32 := matmul dot_S256x256_S1024x256_S256x1024_1_1_0_0_n_n none (truncf .bf16 X bitsLt_bf16_f32) Bv (constant S256x1024 .f32 0x00000000#32)
  let E2 : FVec Ideal S256x1024 .f32 := shrinkExp (expRows A)
  tanh (mulf (matmul dot_S256x1024_S1024x256_S256x256_1_0_0_1_n_n none (truncf .bf16 E2 bitsLt_bf16_f32) Bv (constant S256x256 .f32 0x00000000#32))
    (broadcastTo S256x256 (recipRowSum E2) broadcasts_S256x1_S256x256))

/-- The kernel's payload for a sub-chunk is that chain. -/
theorem pay_eq_chain (Bv : FVec Ideal S1024x256 .bf16) (X : Vec Ideal S256x256 .f32) : k0_pay10 (F := Ideal) Bv X = chain Bv X := rfl

/-- Entry (p, q) of the chain is the fused row formula of row p of the sub-chunk and the bank, at q. -/
theorem chain_apply (Bv : FVec Ideal S1024x256 .bf16) (X : Vec Ideal S256x256 .f32) (p q : Fin 256) :
    chain Bv X (ix2 p q)
      = BankAttention.fusedRow (fun d : Fin 256 => X (ix2 p d)) (fun (k : Fin 1024) (d : Fin 256) => Bv (ix2 k d)) q := by
  have hA : ∀ k : Fin 1024, matmul dot_S256x256_S1024x256_S256x1024_1_1_0_0_n_n none (truncf .bf16 X bitsLt_bf16_f32) Bv (constant S256x1024 .f32 0x00000000#32) (ix2 p k)
      = BankAttention.score (fun d : Fin 256 => X (ix2 p d)) (fun (k : Fin 1024) (d : Fin 256) => Bv (ix2 k d)) k := fun k => by
    rw [scores_apply]; rfl
  have hE : ∀ k : Fin 1024, expRows (matmul dot_S256x256_S1024x256_S256x1024_1_1_0_0_n_n none (truncf .bf16 X bitsLt_bf16_f32) Bv (constant S256x1024 .f32 0x00000000#32)) (ix2 p k)
      = BankAttention.fusedExp (fun d : Fin 256 => X (ix2 p d)) (fun (k : Fin 1024) (d : Fin 256) => Bv (ix2 k d)) k := fun k => by
    rw [expRows_apply, hA]; unfold BankAttention.fusedExp
    exact congrArg (fun f : Fin 1024 → EReal => Ideal.exp (_ - BankAttention.rowMax f)) (funext hA)
  have hE2 : ∀ k : Fin 1024, shrinkExp (expRows (matmul dot_S256x256_S1024x256_S256x1024_1_1_0_0_n_n none (truncf .bf16 X bitsLt_bf16_f32) Bv (constant S256x1024 .f32 0x00000000#32))) (ix2 p k)
      = BankAttention.fusedExp2 (fun d : Fin 256 => X (ix2 p d)) (fun (k : Fin 1024) (d : Fin 256) => Bv (ix2 k d)) k := fun k => by
    rw [shrinkExp_apply, hE, Finset.sum_congr rfl fun k' _ => hE k']; rfl
  show Ideal.tanh (matmul dot_S256x1024_S1024x256_S256x256_1_0_0_1_n_n none _ Bv (constant S256x256 .f32 0x00000000#32) (ix2 p q)
      * broadcastTo S256x256 _ broadcasts_S256x1_S256x256 (ix2 p q)) = _
  rw [mix_apply, spread256_apply, recipRowSum_apply]
  unfold BankAttention.fusedRow
  rw [Finset.sum_congr rfl fun k _ => hE2 k]
  refine congrArg (fun s : EReal => Ideal.tanh (s * _)) (Finset.sum_congr rfl fun k _ => ?_)
  show shrinkExp _ (ix2 p k) * Bv (ix2 k q) = _
  rw [hE2]

end Cert.KernelIdeal.FusedValue

end
-- ==== Proof.KernelValue.lean ====
/-
  From the kernel's sub-chunks to its whole output array. A grid point handles a block of 2048 token rows as
  eight sub-chunks of 256 rows; each sub-chunk's stored result is the chain (KernelRead.lean) of those rows, so the
  block the point writes back holds, at (row, column), the fused row formula of that token row and the bank.
  Point t's block is rows [2048 t, 2048 t + 2048) of the array and the eight points tile its 16384 rows, so
  after the run the array holds, at every (r, q), the fused row formula of token row r and the bank at column q.
-/
import proofs.«127310_g57990648430879_cont_sun_c4_352_16_alg».proof.Proof.KernelRead
import proofs.«127310_g57990648430879_cont_sun_c4_352_16_alg».proof.Proof.Gen.KernelIdeal.Value
import Idealize.ShloMosaic.Lib.Pipeline.Value
import Idealize.ShloMosaic.Lib.ValueIdx

set_option maxRecDepth 16384

noncomputable section

namespace Cert.KernelIdeal.FusedValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-- Row r of an array of n token rows, and the bank, through the fused row formula, at column q. -/
def rowOut {n : Nat} (a : (⟨2, ![n, 256]⟩ : Shape).Idx → EReal) (b : S1024x256.Idx → EReal) (r : Fin n) (q : Fin 256) : EReal :=
  BankAttention.fusedRow (fun d : Fin 256 => a (ix2 r d)) (fun (k : Fin 1024) (d : Fin 256) => b (ix2 k d)) q

/-- What a grid point leaves in its [2048, 256] output block, from its token block and the bank. -/
def blockOut (x0 : Vec Ideal S2048x256 .f32) (x1 : Vec Ideal S1024x256 .bf16) : Vec Ideal S2048x256 .f32 :=
  fun y => rowOut x0 x1 ⟨(y 0).val, idx2_lt0 y⟩ ⟨(y 1).val, idx2_lt1 y⟩

/-- What the whole [16384, 256] output holds, from the token array and the bank. -/
def arrayOut (a0 : S16384x256.Idx → EReal) (b : S1024x256.Idx → EReal) : S16384x256.Idx → EReal :=
  fun i => rowOut a0 b ⟨(i 0).val, idx2_lt0 i⟩ ⟨(i 1).val, idx2_lt1 i⟩

/-! ## Every sub-chunk's stored value is the one chain -/

section Payloads
variable (v0 : Vec Ideal S1024x256 .bf16) (B : FVec Ideal S1024x256 .bf16) (X : Vec Ideal S256x256 .f32)

theorem sub0 : k0_pay4 (F := Ideal) v0 X = chain (k0_pay3 v0) X := rfl
theorem sub1 : k0_pay6 (F := Ideal) (k0_pay3 v0) (k0_pay5 v0 X) = chain (k0_pay3 v0) X := rfl
theorem sub2 : k0_pay9 (F := Ideal) B (k0_pay7 B X) (k0_pay8 B X) = chain B X := rfl
theorem sub3 : k0_pay10 (F := Ideal) B X = chain B X := rfl
theorem sub4 : k0_pay11 (F := Ideal) B X = chain B X := rfl
theorem sub5 : k0_pay13 (F := Ideal) B (k0_pay12 B X) = chain B X := rfl
theorem sub6 : k0_pay1 (F := Ideal) (k0_pay15 B X) (k0_pay16 B X) = chain B X := rfl
theorem sub7 : k0_pay2 (F := Ideal) B X = chain B X := rfl

end Payloads

theorem zeros2 : (![0, 0] : Fin 2 → Nat) = fun _ => 0 := funext fun a => by fin_cases a <;> rfl

/-- The bank as the body sees it (loaded whole, cast to its own shape) is the bank block. -/
theorem bank_eq (x1 : Vec Ideal S1024x256 .bf16) : k0_pay3 (F := Ideal) (View.ld x1 r0_0) = x1 := by
  unfold k0_pay3
  rw [shapeCast_self, View.ld_unit_zero (S := S1024x256) zeros2]

/-- The chain of the 256 rows starting at row o of the token block, at local (p, q), is the block's value at (o + p, q). -/
theorem piece_apply (x0 : Vec Ideal S2048x256 .f32) (x1 : Vec Ideal S1024x256 .bf16) (o : Nat)
    (inb : ∀ a, (![o, 0] : Fin 2 → Nat) a + S256x256.size a ≤ S2048x256.size a) (x : S256x256.Idx) :
    chain (k0_pay3 (View.ld x1 r0_0)) (View.ld x0 (Rect.unit (s := S2048x256) ![o, 0] S256x256.size inb)) x
      = blockOut x0 x1 ((Rect.unit (s := S2048x256) ![o, 0] S256x256.size inb).emb x) := by
  obtain ⟨p, q, rfl⟩ : ∃ (p q : Fin 256), x = ix2 p q := ⟨x 0, x 1, eq_ix2 x⟩
  rw [chain_apply, bank_eq]
  unfold blockOut rowOut
  have hrow : (fun d : Fin 256 => View.ld x0 (Rect.unit (s := S2048x256) ![o, 0] S256x256.size inb) (ix2 p d))
      = fun d : Fin 256 => x0 (ix2 (⟨(((Rect.unit (s := S2048x256) ![o, 0] S256x256.size inb).emb (ix2 p q)) 0).val, idx2_lt0 _⟩ : Fin 2048) d) := by
    funext d
    show x0 ((Rect.unit (s := S2048x256) ![o, 0] S256x256.size inb).emb (ix2 p d)) = _
    refine congrArg x0 (funext fun a => Fin.ext ?_)
    match a with
    | ⟨0, _⟩ => rfl
    | ⟨1, _⟩ => show 0 + 1 * d.val = d.val; omega
  have hq : q = (⟨(((Rect.unit (s := S2048x256) ![o, 0] S256x256.size inb).emb (ix2 p q)) 1).val, idx2_lt1 _⟩ : Fin 256) :=
    Fin.ext (by show q.val = 0 + 1 * q.val; omega)
  rw [hrow, ← hq]

/-- The eight stores of a grid point leave `blockOut` of its token block and the bank. -/
theorem out_eq (x0 : Vec Ideal S2048x256 .f32) (x1 : Vec Ideal S1024x256 .bf16) : out0_2 (F := Ideal) x0 x1 = blockOut x0 x1 := by
  funext y
  unfold out0_2
  refine View.canon_apply_of_pieces (blockOut x0 x1) _ ?_ y (cover0_2 _ _ _ _ _ _ _ _ y)
  intro pc hpc x
  simp only [List.mem_cons, List.not_mem_nil, or_false] at hpc
  rcases hpc with rfl | rfl | rfl | rfl | rfl | rfl | rfl | rfl
  · exact piece_apply x0 x1 1792 _ x
  · exact piece_apply x0 x1 1536 _ x
  · exact piece_apply x0 x1 1280 _ x
  · exact piece_apply x0 x1 1024 _ x
  · exact piece_apply x0 x1 768 _ x
  · exact piece_apply x0 x1 512 _ x
  · exact piece_apply x0 x1 256 _ x
  · exact piece_apply x0 x1 0 _ x

/-! ## From blocks to the array -/

variable (m : (ℓ : Loc nD τ sig) → Buf (Elt Ideal) ℓ) (ρ : Dev nD → PrngReg)

/-- The index maps over the 8 grid points: the token window moves with the output window along the rows
    (block row = the point's number) and stays at column block 0; the bank window never moves. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is block t of `arrayOut` of the token array and the bank as the region finds them. -/
theorem flushed_eq (c : Dev nD) (t : Fin cfg0.N) :
    (dats m 0 c).flushed 2 t
      = ((cfg0.win 2).blk t).view.read (Elt Ideal) (arrayOut (V m c main_arg0) (V m c main_v0)) := by
  rw [Value.flushed2, out_eq]
  obtain ⟨e0, e1, e2, e3, e4, e5⟩ := idx_facts t
  funext y
  show blockOut (iblk m c 0 t) (iblk m c 1 t) y
    = arrayOut (V m c main_arg0) (V m c main_v0) (((cfg0.win 2).blk t).view.emb y)
  unfold blockOut arrayOut rowOut
  have hrow : (fun d : Fin 256 => iblk m c 0 t (ix2 (⟨(y 0).val, idx2_lt0 y⟩ : Fin 2048) d))
      = fun d : Fin 256 => V m c main_arg0 (ix2 (⟨((((cfg0.win 2).blk t).view.emb y) 0).val, idx2_lt0 _⟩ : Fin 16384) d) := by
    funext d
    show V m c main_arg0 (((cfg0.win 0).blk t).view.emb (ix2 (⟨(y 0).val, idx2_lt0 y⟩ : Fin 2048) d)) = _
    refine congrArg (V m c main_arg0) (funext fun a => Fin.ext ?_)
    match a with
    | ⟨0, _⟩ =>
      show win0_0.index t (0 : Fin 2) * 2048 + 1 * (y 0).val = win0_2.index t (0 : Fin 2) * 2048 + 1 * (y 0).val
      omega
    | ⟨1, _⟩ =>
      show win0_0.index t (1 : Fin 2) * 256 + 1 * d.val = d.val
      omega
  have hbank : (fun (k : Fin 1024) (d : Fin 256) => iblk m c 1 t (ix2 k d))
      = fun (k : Fin 1024) (d : Fin 256) => V m c main_v0 (ix2 k d) := by
    funext k d
    show V m c main_v0 (((cfg0.win 1).blk t).view.emb (ix2 k d)) = _
    refine congrArg (V m c main_v0) (funext fun a => Fin.ext ?_)
    match a with
    | ⟨0, _⟩ =>
      show win0_1.index t (0 : Fin 2) * 1024 + 1 * k.val = k.val
      omega
    | ⟨1, _⟩ =>
      show win0_1.index t (1 : Fin 2) * 256 + 1 * d.val = d.val
      omega
  have hq : (⟨(y 1).val, idx2_lt1 y⟩ : Fin 256) = ⟨((((cfg0.win 2).blk t).view.emb y) 1).val, idx2_lt1 _⟩ :=
    Fin.ext (by show (y 1).val = win0_2.index t (1 : Fin 2) * 256 + 1 * (y 1).val; omega)
  rw [hrow, hbank, hq]

/-- An index of the array is in point t's block iff each coordinate is in the block's range on its axis. -/
theorem mem_blk (t : Fin cfg0.N) (i : S16384x256.Idx) :
    i ∈ ((cfg0.win 2).blk t).view.set ↔ ∀ a : Fin 2, win0_2.index t a * S2048x256.size a ≤ (i a).val
      ∧ (i a).val < win0_2.index t a * S2048x256.size a + S2048x256.size a := by
  show i ∈ ((View.whole main_v1).slice (win0_2.rect t)).set ↔ _
  rw [View.set_slice_whole, Rect.mem_set_unit]
  exact Iff.rfl

/-- Every index of the array is in the block of the point that handles its row: row r belongs to point r / 2048. -/
theorem covered (i : S16384x256.Idx) :
    ∃ t : Fin cfg0.N, (cfg0.win 2).flush t = true ∧ i ∈ ((cfg0.win 2).blk t).view.set := by
  have hi0 : (i 0).val < 16384 := idx2_lt0 i
  have hi1 : (i 1).val < 256 := idx2_lt1 i
  have ht : (i 0).val / 2048 < cfg0.N := by show (i 0).val / 2048 < 8; omega
  refine ⟨(⟨(i 0).val / 2048, ht⟩ : Fin cfg0.N), flush0_2 _, ?_⟩
  rw [mem_blk]
  obtain ⟨e0, e1, e2, e3, e4, e5⟩ := idx_facts (⟨(i 0).val / 2048, ht⟩ : Fin cfg0.N)
  have e5' : win0_2.index (⟨(i 0).val / 2048, ht⟩ : Fin cfg0.N) (0 : Fin 2) = (i 0).val / 2048 := e5
  intro a
  match a with
  | ⟨0, _⟩ =>
    show win0_2.index (⟨(i 0).val / 2048, ht⟩ : Fin cfg0.N) (0 : Fin 2) * 2048 ≤ (i 0).val
      ∧ (i 0).val < win0_2.index (⟨(i 0).val / 2048, ht⟩ : Fin cfg0.N) (0 : Fin 2) * 2048 + 2048
    omega
  | ⟨1, _⟩ =>
    show win0_2.index (⟨(i 0).val / 2048, ht⟩ : Fin cfg0.N) (1 : Fin 2) * 256 ≤ (i 1).val
      ∧ (i 1).val < win0_2.index (⟨(i 0).val / 2048, ht⟩ : Fin cfg0.N) (1 : Fin 2) * 256 + 256
    omega

/-- The bank as the region finds it: the host casts it to bf16 before the launch, which on the extended reals changes nothing. -/
theorem bank_entry (c : Dev nD) :
    (V m c main_v0 : S1024x256.Idx → EReal) = m ((c : Thread nD τ).loc main_arg1) := by
  have e : (V m c main_v0 : S1024x256.Idx → EReal)
      = truncf (F := Ideal) .bf16 (m ((c : Thread nD τ).loc main_arg1)) bitsLt_bf16_f32 := by
    dsimp only [Gen.V, Gen.hostOps0]; after_results
  rw [e]; rfl

/-- The output array after the run: `arrayOut` of the two argument arrays as launched. -/
theorem final (c : Dev nD) :
    (dats m 0 c).arrAt 2 cfg0.N
      = arrayOut (m ((c : Thread nD τ).loc main_arg0)) (m ((c : Thread nD τ).loc main_arg1)) := by
  rw [(dats m 0 c).arrAt_eq_of_cover 2 (arrayOut (V m c main_arg0) (V m c main_v0)) (fun t _ => flushed_eq m c t) covered,
    V_main_arg0, bank_entry]

/-- The kernel's run: every weakly fair execution ends with the output array at `arrayOut` of the arguments, the arguments unchanged. -/
theorem run : θ_run defs (onTc (τ := τ) (main (F := Ideal))) ⟨m, fun _ => 0, ρ⟩ fun r => ∀ c : Dev nD,
      r.2.mem ((c : Thread nD τ).loc main_v1)
        = arrayOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.FusedValue

end
-- ==== Proof.lean ====
/-
  The fused memory-bank attention kernel against its jnp reference, over the extended reals.

  Both programs map a token array x : [16384, 256] and a bank : [1024, 256] to
      tanh ( softmax( shrink( softmax( x · bankᵀ ) ) ) · bank ),  row by row.
  The kernel walks the tokens in blocks of 2048 rows, eight sub-chunks of 256 rows each, and arranges the formula
  differently from the reference: it multiplies by the reciprocal of the first softmax's row sum, writes the soft
  threshold of a non-negative weight as `max (p - λ) 0`, subtracts no maximum in the second softmax, and applies that
  softmax's normalisation 1/Z after the product with the bank. (Its bf16 casts are the identity on extended reals.)

  * Spec.lean writes both arrangements of one row; Law.lean proves them equal on real inputs.
  * KernelRead.lean reads the kernel's sub-chunk arithmetic at an index as the fused arrangement; KernelValue.lean
    carries that from sub-chunks to blocks to the whole output array.
  * RefRead.lean reads the reference's result at an index as the textbook arrangement.
  * Finite.lean reads the precondition: every input entry is a real number, which is what the law needs
    (cancelling the factor exp(-M₂) and moving 1/Z across the sum over the bank are invalid at an infinity).
  The three frames are the generated frame runs; the idealization rewrote nothing, so `preserves` is trivial.
-/
import proofs.«127310_g57990648430879_cont_sun_c4_352_16_alg».proof.Defs
import proofs.«127310_g57990648430879_cont_sun_c4_352_16_alg».proof.Proof.Gen.Kernel
import proofs.«127310_g57990648430879_cont_sun_c4_352_16_alg».proof.Proof.Gen.Kernel.Frame
import proofs.«127310_g57990648430879_cont_sun_c4_352_16_alg».proof.Proof.Gen.KernelIdeal
import proofs.«127310_g57990648430879_cont_sun_c4_352_16_alg».proof.Proof.Gen.KernelIdeal.Frame
import proofs.«127310_g57990648430879_cont_sun_c4_352_16_alg».proof.Proof.Gen.ReferenceIdeal
import proofs.«127310_g57990648430879_cont_sun_c4_352_16_alg».proof.Proof.Gen.Pre_finite_inputs
import proofs.«127310_g57990648430879_cont_sun_c4_352_16_alg».proof.Proof.Gen.KernelIdeal.Value
import proofs.«127310_g57990648430879_cont_sun_c4_352_16_alg».proof.Proof.Gen.ReferenceIdeal.Run
import proofs.«127310_g57990648430879_cont_sun_c4_352_16_alg».proof.Proof.Gen.ReferenceIdeal.Read
import proofs.«127310_g57990648430879_cont_sun_c4_352_16_alg».proof.Proof.Law
import proofs.«127310_g57990648430879_cont_sun_c4_352_16_alg».proof.Proof.Finite
import proofs.«127310_g57990648430879_cont_sun_c4_352_16_alg».proof.Proof.RefRead
import proofs.«127310_g57990648430879_cont_sun_c4_352_16_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result array is the kernel's function of the arguments when every argument entry is real:
    entry (r, q) is the textbook row formula on one side and the fused one on the other, equal by the law. -/
theorem reference_eq_arrayOut (a0 : Cert.ReferenceIdeal.S16384x256.Idx → EReal) (a1 : Cert.ReferenceIdeal.S1024x256.Idx → EReal)
    (h0 : ∀ i, ∃ r : ℝ, a0 i = (r : EReal)) (h1 : ∀ i, ∃ r : ℝ, a1 i = (r : EReal)) :
    Cert.ReferenceIdeal.Read.val_main_v32 (F := Ideal) a0 a1 = Cert.KernelIdeal.FusedValue.arrayOut a0 a1 := by
  funext i
  obtain ⟨r, q, rfl⟩ : ∃ (r : Fin 16384) (q : Fin 256), i = ix2 r q := ⟨i 0, i 1, eq_ix2 i⟩
  rw [Cert.ReferenceIdeal.RefValue.result_apply]
  exact (congrFun (BankAttention.fusedRow_eq_textbookRow (fun d : Fin 256 => a0 (ix2 r d))
    (fun (k : Fin 1024) (d : Fin 256) => a1 (ix2 k d)) (fun d => h0 _) (fun k d => h1 _)) q).symm

/-- From memories that agree on the arguments, both programs end with the same result array. -/
theorem algebraic : Cert.algebraic_KernelIdeal_ReferenceIdeal := by
  intro m ρ m' ρ' hpre hagree
  refine ⟨fun c => Cert.KernelIdeal.FusedValue.arrayOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.FusedValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.Pre_finite_inputs.Decode.real_of_pre _ _ (hpre c)
  rw [Cert.ReferenceIdeal.Read.val_main_v32_eq, (hagree c).1, (hagree c).2]
  exact reference_eq_arrayOut _ _ h0 h1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
